-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S600000 : Shape := ⟨1, ![600000]⟩
abbrev S1x128 : Shape := ⟨2, ![1, 128]⟩
abbrev S128 : Shape := ⟨1, ![128]⟩
abbrev S256x128 : Shape := ⟨2, ![256, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1000000x128 .f32) (main_arg1 : FVec F S600000 .f32) (main_arg2 : FVec F S1x128 .f32) (main_arg3 : FVec F S128 .f32) (main_arg4 : FVec F S256x128 .f32) (main_arg5 : FVec F S128 .f32) (main_arg6 : IVec S1000000 1) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1000000x128 : Shape := ⟨2, ![1000000, 128]⟩
abbrev S600000 : Shape := ⟨1, ![600000]⟩
abbrev S1x128 : Shape := ⟨2, ![1, 128]⟩
abbrev S128 : Shape := ⟨1, ![128]⟩
abbrev S256x128 : Shape := ⟨2, ![256, 128]⟩
abbrev S1000000 : Shape := ⟨1, ![1000000]⟩
abbrev S600000x1 : Shape := ⟨2, ![600000, 1]⟩
abbrev S128x128 : Shape := ⟨2, ![128, 128]⟩
abbrev S4000x128 : Shape := ⟨2, ![4000, 128]⟩
abbrev S4000x1 : Shape := ⟨2, ![4000, 1]⟩

abbrev nBuf : Space → Nat
  | .hbm => 13
  | .vmem => 11
  | .smem => 0
  | _ => 0

abbrev bufTy : (tb : Table) → Fin (tcTables nBuf tb) → BufTy
  | .hbm, ⟨0, _⟩ => ⟨S1000000x128, .f32⟩
  | .hbm, ⟨1, _⟩ => ⟨S600000, .f32⟩
  | .hbm, ⟨2, _⟩ => ⟨S1x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1000000, .i1⟩
  | .hbm, ⟨7, _⟩ => ⟨S600000x1, .f32⟩
  | .hbm, ⟨8, _⟩ => ⟨S128x128, .f32⟩
  | .hbm, ⟨9, _⟩ => ⟨S128x128, .bf16⟩
  | .hbm, ⟨10, _⟩ => ⟨S128x128, .f32⟩
  | .hbm, ⟨11, _⟩ => ⟨S128x128, .bf16⟩
  | .hbm, ⟨12, _⟩ => ⟨S1000000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x128, .f32⟩
  | .local _ .vmem, ⟨5, _⟩ => ⟨S128, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S4000x128, .f32⟩
  | .local _ .vmem, ⟨10, _⟩ => ⟨S4000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def k0_cond1 (i : grid0.Coords) : BitVec 1 :=
  let arg0 : BitVec 32 := BitVec.ofNat 32 (i 0).val
  let c150_i32 : BitVec 32 := 150#32
  let v0 : BitVec 1 := Scalar.cmpi .slt arg0 c150_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c150_i32_0 : BitVec 32 := 150#32
  let v3 : BitVec 1 := Scalar.cmpi .sge arg0 c150_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c149_i32 : BitVec 32 := 149#32
  let v0 : BitVec 32 := Scalar.minsi arg0 c149_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S600000_S600000x1 : S600000.ShapeCasts S600000x1
  slices_S256x128_S128x128_0_0 : S256x128.Slices ![0, 0] S128x128
  bitsLt_bf16_f32 : FTy.bits .bf16 < FTy.bits .f32
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  broadcasts_S4000x1_S4000x128 : S4000x1.Broadcasts S4000x128
  broadcasts_S1x128_S4000x128 : S1x128.Broadcasts S4000x128
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S600000x1.size a
  hwx0_1 : ∀ i : grid0.Coords, EltTy.bits .f32 = 32 ∨ (Rect.block (s := S600000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S1000000x128.size a
  hwx0_7 : ∀ i : grid0.Coords, EltTy.bits .f32 = 32 ∨ (Rect.block (s := S1000000x128) S4000x128.size (cc0_transform_7 i) (hinb0_7 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S1000000x128 : Shape := ⟨2, ![1000000, 128]⟩
abbrev S600000 : Shape := ⟨1, ![600000]⟩
abbrev S1x128 : Shape := ⟨2, ![1, 128]⟩
abbrev S128 : Shape := ⟨1, ![128]⟩
abbrev S256x128 : Shape := ⟨2, ![256, 128]⟩
abbrev S1000000 : Shape := ⟨1, ![1000000]⟩
abbrev S600000x128 : Shape := ⟨2, ![600000, 128]⟩
abbrev S600000x1 : Shape := ⟨2, ![600000, 1]⟩
abbrev S600000x256 : Shape := ⟨2, ![600000, 256]⟩
abbrev S_ : Shape := ⟨0, ![]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S600000, .f32⟩
  | .hbm, ⟨2, _⟩ => ⟨S1x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1000000, .i1⟩
  | .hbm, ⟨7, _⟩ => ⟨S600000x128, .f32⟩
  | .hbm, ⟨8, _⟩ => ⟨S600000x1, .f32⟩
  | .hbm, ⟨9, _⟩ => ⟨S128, .f32⟩
  | .hbm, ⟨10, _⟩ => ⟨S1x128, .f32⟩
  | .hbm, ⟨11, _⟩ => ⟨S600000x128, .f32⟩
  | .hbm, ⟨12, _⟩ => ⟨S600000x128, .f32⟩
  | .hbm, ⟨13, _⟩ => ⟨S600000x128, .f32⟩
  | .hbm, ⟨14, _⟩ => ⟨S1x128, .f32⟩
  | .hbm, ⟨15, _⟩ => ⟨S600000x128, .f32⟩
  | .hbm, ⟨16, _⟩ => ⟨S600000x128, .f32⟩
  | .hbm, ⟨17, _⟩ => ⟨S600000x256, .f32⟩
  | .hbm, ⟨18, _⟩ => ⟨S600000x128, .f32⟩
  | .hbm, ⟨19, _⟩ => ⟨S1x128, .f32⟩
  | .hbm, ⟨20, _⟩ => ⟨S600000x128, .f32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S600000x128, .f32⟩
  | .hbm, ⟨26, _⟩ => ⟨S600000x128, .f32⟩
  | .hbm, ⟨27, _⟩ => ⟨S_, .f32⟩
  | .hbm, ⟨28, _⟩ => ⟨S600000x128, .f32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .i32⟩
  | .hbm, ⟨37, _⟩ => ⟨S1, .i32⟩
  | .hbm, ⟨38, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S1000000x128_S600000x128_0_0 : S1000000x128.Slices ![0, 0] S600000x128
  bcast_S600000_S600000x1_0 : S600000.BroadcastsInDim S600000x1 (![0] : Fin 1 → Fin S600000x1.rank)
  shapeCasts_S1x128_S128 : S1x128.ShapeCasts S128
  bcast_S128_S1x128_1 : S128.BroadcastsInDim S1x128 (![1] : Fin 1 → Fin S1x128.rank)
  bcast_S600000x1_S600000x128_0_1 : S600000x1.BroadcastsInDim S600000x128 (![0, 1] : Fin 2 → Fin S600000x128.rank)
  bcast_S1x128_S600000x128_0_1 : S1x128.BroadcastsInDim S600000x128 (![0, 1] : Fin 2 → Fin S600000x128.rank)
  concatenates_S600000x128_S600000x128_S600000x256_d1 : Shape.Concatenates [S600000x128, S600000x128] S600000x256 1
  bcast_S_S600000x128 : S_.BroadcastsInDim S600000x128 (![] : Fin 0 → Fin S600000x128.rank)
  bcast_S_S1 : S_.BroadcastsInDim S1 (![] : Fin 0 → Fin S1.rank)
  dot_S600000x256_S256x128_S600000x128_1_0_0_1_n_n_wf : DotDims.WF S600000x256 S256x128 S600000x128 [1] [0] [0] [1] [] []
  scatter_S1000000x128_S1_S600000x128_01_n_0_0_wf : ScatterDims.WF S1000000x128 S1 S600000x128 [0, 1] [] [0] 0

variable [Facts₀]

def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S1000000x128_S1_S600000x128_01_n_0_0 : ScatterDims S1000000x128 S1 S600000x128 where
  updateWindowDims := [0, 1]
  insertedWindowDims := []
  scatterDimsToOperandDims := [0]
  indexVectorDim := 0
  wf := scatter_S1000000x128_S1_S600000x128_01_n_0_0_wf

class Facts : Prop extends Facts₀ where

variable [Facts]
-- ==== Proof.Pieces.lean ====
/-
  What each control case of the kernel body leaves in the output block's staging buffer, as a value.

  On the tiles of variable nodes (grid points below 150) the body stores, over the whole block, the fused rows computed
  from the seven input blocks; on the other tiles it stores the feature block back unchanged.  Each case ends with ONE
  store that covers the block, so the buffer read back is that store's payload.
-/
import proofs.«125432_j42709154792034_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A tile of variable nodes: the block holds the fused rows, the body's arithmetic of the seven input blocks. -/
theorem out_A (c : Dev nD) (i : grid0.Coords) (arg1 : Memref sig .tc .vmem S4000x128 .f32) (harg1 : arg1.IsWhole) (arg2 : Memref sig .tc .vmem S4000x1 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128 .f32) (harg7 : arg7.IsWhole) (arg8 : Memref sig .tc .vmem S4000x128 .f32) (harg8 : arg8.IsWhole) (hc0 : cond0_0 i) (hc1 : ¬cond0_1 i)
    (x0 : Vec F S4000x128 .f32) (x1 : Vec F S4000x1 .f32) (x2 : Vec F S1x128 .f32) (x3 : Vec F S128 .f32) (x4 : Vec F S128x128 .bf16) (x5 : Vec F S128x128 .bf16) (x6 : Vec F S128 .f32) :
    out0_A_7 c i arg1 harg1 arg2 harg2 arg3 harg3 arg4 harg4 arg5 harg5 arg6 harg6 arg7 harg7 arg8 harg8 hc0 hc1 x0 x1 x2 x3 x4 x5 x6 = k0_pay1 x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5 x6)]
  unfold kernelRun0_A
  dsimp only
  sl_unfold_words
  rw [View.canon_unit_zero hz2]
  simp only [View.readAt_eq_ld, harg1.read_unread, harg2.read_unread, harg3.read_unread, harg4.read_unread,
    harg5.read_unread, harg6.read_unread, harg7.read_unread, View.ld_unit_zero (S := S4000x128) hz2,
    View.ld_unit_zero (S := S4000x1) hz2, View.ld_unit_zero (S := S1x128) hz2, View.ld_unit_zero (S := S128) hz1,
    View.ld_unit_zero (S := S128x128) hz2]

/-- A tile of the other nodes: the block holds the feature block, unchanged. -/
theorem out_B (c : Dev nD) (i : grid0.Coords) (arg1 : Memref sig .tc .vmem S4000x128 .f32) (harg1 : arg1.IsWhole) (arg2 : Memref sig .tc .vmem S4000x1 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128 .f32) (harg7 : arg7.IsWhole) (arg8 : Memref sig .tc .vmem S4000x128 .f32) (harg8 : arg8.IsWhole) (hc0 : ¬cond0_0 i) (hc1 : cond0_1 i)
    (x0 : Vec F S4000x128 .f32) (x1 : Vec F S4000x1 .f32) (x2 : Vec F S1x128 .f32) (x3 : Vec F S128 .f32) (x4 : Vec F S128x128 .bf16) (x5 : Vec F S128x128 .bf16) (x6 : Vec F S128 .f32) :
    out0_B_7 c i arg1 harg1 arg2 harg2 arg3 harg3 arg4 harg4 arg5 harg5 arg6 harg6 arg7 harg7 arg8 harg8 hc0 hc1 x0 x1 x2 x3 x4 x5 x6 = x0 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 x6)]
  unfold kernelRun0_B
  dsimp only
  sl_unfold_words
  rw [View.canon_unit_zero hz2]
  simp only [View.readAt_eq_ld, harg1.read_unread, View.ld_unit_zero (S := S4000x128) hz2]

end Cert.KernelIdeal.Pieces

end
-- ==== Proof.Spec.lean ====
/-
  What both programs compute, as ONE function of the argument arrays, index by index, on the extended reals.

  A node row `r` below 600000 (a variable node) is fused with its scalar LLR: the LLR is projected to 128 lanes,
  `λ q = llr r · wl q + bl q`; a gate is the logistic of the 256-deep linear form of the row's features followed by
  that projection, `z q = (∑ₖ x r k · W k q + ∑ₖ λ k · W (128 + k) q) + bg q`; and the row becomes the convex
  combination `σ(z q) · λ q + (1 − σ(z q)) · x r q`.  Rows from 600000 on are kept.

  The one law between the two programs' arrangements is that a sum over 256 positions is the sum over the first 128
  plus the sum over the last 128: addition of extended reals is commutative and associative, so nothing about
  finiteness is needed.
-/
import Idealize.ShloMosaic.PureOps.Ideal
import Idealize.ShloMosaic.PureOps.Ideal.Laws
import Idealize.ShloMosaic.Lib.ValueIdx
import Idealize.ShloMosaic.Lib.IdealHost

noncomputable section

namespace Cert.GateFuse

open Idealize.ShloMosaic Idealize.ShloMosaic.ValueIdx

/-- Position `k` of the first half of a 256-long axis. -/
abbrev lo (k : Fin 128) : Fin 256 := ⟨k.val, by have := k.isLt; omega⟩
/-- Position `k` of the second half of a 256-long axis. -/
abbrev hi (k : Fin 128) : Fin 256 := ⟨128 + k.val, by have := k.isLt; omega⟩

/-- A sum over 256 positions is the sum over its two halves. -/
theorem sum_halves {M : Type} [AddCommMonoid M] (f : Fin 256 → M) :
    ∑ k : Fin 256, f k = ∑ k : Fin 128, f (lo k) + ∑ k : Fin 128, f (hi k) :=
  Fin.sum_univ_add (a := 128) (b := 128) f

/-- The f32 word of one, as an extended real. -/
abbrev one : EReal := Ideal.ofBits .f32 0x3F800000#32

/-- One fused row at lane `q`, from the row's features `xr`, its scalar LLR `lr`, the projection `wl`, `bl`, the two
    halves `w1`, `w2` of the gate's matrix and its bias `bg`. -/
def fusedAt (xr : Fin 128 → EReal) (lr : EReal) (wl bl : Fin 128 → EReal) (w1 w2 : Fin 128 → Fin 128 → EReal)
    (bg : Fin 128 → EReal) (q : Fin 128) : EReal :=
  Ideal.logistic (((∑ k : Fin 128, xr k * w1 k q) + (∑ k : Fin 128, (lr * wl k + bl k) * w2 k q)) + bg q)
      * (lr * wl q + bl q)
    + (one - Ideal.logistic (((∑ k : Fin 128, xr k * w1 k q) + (∑ k : Fin 128, (lr * wl k + bl k) * w2 k q)) + bg q))
      * xr q

/-- Row `r` of a 600000-row array as a row of the 1000000-row array. -/
abbrev rowN (r : Fin 600000) : Fin 1000000 := ⟨r.val, by have := r.isLt; omega⟩

/-- The result array: the variable rows fused, the others kept. -/
def G (x : (⟨2, ![1000000, 128]⟩ : Shape).Idx → EReal) (l : (⟨1, ![600000]⟩ : Shape).Idx → EReal)
    (wl : (⟨2, ![1, 128]⟩ : Shape).Idx → EReal) (bl : (⟨1, ![128]⟩ : Shape).Idx → EReal)
    (wg : (⟨2, ![256, 128]⟩ : Shape).Idx → EReal) (bg : (⟨1, ![128]⟩ : Shape).Idx → EReal) :
    (⟨2, ![1000000, 128]⟩ : Shape).Idx → EReal := fun i =>
  if h : (i 0).val < 600000 then
    fusedAt (fun k => x (ix2 (i 0) k)) (l (ix1 (⟨(i 0).val, h⟩ : Fin 600000))) (fun k => wl (ix2 (0 : Fin 1) k))
      (fun k => bl (ix1 k)) (fun k q => wg (ix2 (lo k) q)) (fun k q => wg (ix2 (hi k) q)) (fun k => bg (ix1 k)) (i 1)
  else x i

/-- `G` at a variable row. -/
theorem G_var (x l wl bl wg bg) (r : Fin 600000) (q : Fin 128) :
    G x l wl bl wg bg (ix2 (rowN r) q)
      = fusedAt (fun k => x (ix2 (rowN r) k)) (l (ix1 r)) (fun k => wl (ix2 (0 : Fin 1) k))
          (fun k => bl (ix1 k)) (fun k q => wg (ix2 (lo k) q)) (fun k q => wg (ix2 (hi k) q)) (fun k => bg (ix1 k)) q := by
  unfold G
  have h : ((ix2 (rowN r) q : (⟨2, ![1000000, 128]⟩ : Shape).Idx) 0).val < 600000 := r.isLt
  rw [dif_pos h]

/-- `G` at a row that is kept. -/
theorem G_keep (x l wl bl wg bg) (i : (⟨2, ![1000000, 128]⟩ : Shape).Idx) (h : ¬ (i 0).val < 600000) :
    G x l wl bl wg bg i = x i := by
  unfold G
  rw [dif_neg h]

/-- The gate written out with negate, exponential, add and divide is the logistic. -/
theorem logistic_spelt (z : EReal) : Ideal.div one (one + Ideal.exp (-z)) = Ideal.logistic z := by
  unfold one Ideal.logistic
  rw [Ideal.ofBits_one_f32]

end Cert.GateFuse

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Payload.lean ====
/-
  The body's arithmetic on a tile of variable nodes, read at one entry `(p, q)` of the block, on the extended reals.

  The scalar LLR of row `p` (a column block) is spread over the lanes against the one projection row and its bias;
  the two block products of the gate are sums over the 128 positions of a row; the logistic of their sum plus the
  bias mixes the projected LLR with the row's features.  A change of float format is the identity here, so the
  products are taken of the values themselves.  The result is the specification's `fusedAt` of row `p` of each block.
-/
import proofs.«125432_j42709154792034_1_alg».proof.Proof.Gen.KernelIdeal.Skeleton
import proofs.«125432_j42709154792034_1_alg».proof.Proof.Spec
import proofs.«125432_j42709154792034_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.GateFuse (fusedAt one)

/-! ## The block product at an entry -/

theorem lhs_dot_0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs_dot_0 (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs_dot_1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] block times a [128,128] matrix into a zero accumulator, at `(p, q)`: row `p` against column `q`. -/
theorem mm_apply (A : FVec Ideal S4000x128 .bf16) (B : FVec Ideal S128x128 .bf16) (p : Fin 4000) (q : Fin 128) :
    matmul dot_S4000x128_S128x128_S4000x128_1_0_0_1_n_n none A B (constant S4000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The projected LLR block -/

/-- The LLR column spread over the lanes, times the projection row, plus its bias. -/
def llrBlk (v7 : Vec Ideal S4000x1 .f32) (v9 : Vec Ideal S1x128 .f32) (v13 : Vec Ideal S128 .f32) : FVec Ideal S4000x128 .f32 :=
  addf (mulf (broadcastTo S4000x128 (shapeCast S4000x1 v7 shapeCasts_S4000x1_S4000x1) broadcasts_S4000x1_S4000x128)
      (broadcastTo S4000x128 v9 broadcasts_S1x128_S4000x128))
    (broadcastTo S4000x128 (shapeCast S1x128 v13 shapeCasts_S128_S1x128) broadcasts_S1x128_S4000x128)

/-- A bias vector spread over the rows of a block, at `(p, q)`: its lane `q`. -/
theorem bias_apply (v : Vec Ideal S128 .f32) (p : Fin 4000) (q : Fin 128) :
    broadcastTo S4000x128 (shapeCast S1x128 v shapeCasts_S128_S1x128) broadcasts_S1x128_S4000x128 (ix2 p q) = v (ix1 q) := by
  rw [ValueIdx.broadcastTo_1b_ab_apply, ValueIdx.shapeCast_a_1a_apply]

theorem llrBlk_apply (v7 : Vec Ideal S4000x1 .f32) (v9 : Vec Ideal S1x128 .f32) (v13 : Vec Ideal S128 .f32)
    (p : Fin 4000) (q : Fin 128) :
    llrBlk v7 v9 v13 (ix2 p q) = v7 (ix2 p (0 : Fin 1)) * v9 (ix2 (0 : Fin 1) q) + v13 (ix1 q) := by
  unfold llrBlk
  rw [addf_apply, mulf_apply, bias_apply, Cert.LibKeepdims.broadcastTo_a1_ab_apply, shapeCast_self,
    ValueIdx.broadcastTo_1b_ab_apply]

/-! ## The gate's linear form -/

def logitBlk (v6 : Vec Ideal S4000x128 .f32) (v7 : Vec Ideal S4000x1 .f32) (v9 : Vec Ideal S1x128 .f32)
    (v13 : Vec Ideal S128 .f32) (v19 v22 : Vec Ideal S128x128 .bf16) (v26 : Vec Ideal S128 .f32) : FVec Ideal S4000x128 .f32 :=
  addf (addf
      (matmul dot_S4000x128_S128x128_S4000x128_1_0_0_1_n_n none (truncf .bf16 v6 bitsLt_bf16_f32 : FVec Ideal S4000x128 .bf16)
        (shapeCast S128x128 v19 shapeCasts_S128x128_S128x128 : FVec Ideal S128x128 .bf16)
        (constant S4000x128 .f32 0x00000000#32))
      (matmul dot_S4000x128_S128x128_S4000x128_1_0_0_1_n_n none (truncf .bf16 (llrBlk v7 v9 v13) bitsLt_bf16_f32 : FVec Ideal S4000x128 .bf16)
        (shapeCast S128x128 v22 shapeCasts_S128x128_S128x128 : FVec Ideal S128x128 .bf16)
        (constant S4000x128 .f32 0x00000000#32)))
    (broadcastTo S4000x128 (shapeCast S1x128 v26 shapeCasts_S128_S1x128) broadcasts_S1x128_S4000x128)

theorem logitBlk_apply (v6 : Vec Ideal S4000x128 .f32) (v7 : Vec Ideal S4000x1 .f32) (v9 : Vec Ideal S1x128 .f32)
    (v13 : Vec Ideal S128 .f32) (v19 v22 : Vec Ideal S128x128 .bf16) (v26 : Vec Ideal S128 .f32) (p : Fin 4000) (q : Fin 128) :
    logitBlk v6 v7 v9 v13 v19 v22 v26 (ix2 p q)
      = ((∑ k : Fin 128, v6 (ix2 p k) * v19 (ix2 k q))
          + (∑ k : Fin 128, (v7 (ix2 p (0 : Fin 1)) * v9 (ix2 (0 : Fin 1) k) + v13 (ix1 k)) * v22 (ix2 k q)))
        + v26 (ix1 q) := by
  unfold logitBlk
  rw [addf_apply, addf_apply, bias_apply, mm_apply, mm_apply]
  simp only [truncf_apply, shapeCast_self, llrBlk_apply]

/-! ## The stored block -/

/-- The stored block is the mix of the projected LLR and the features by the logistic of the linear form. -/
theorem pay_eq (v6 : Vec Ideal S4000x128 .f32) (v7 : Vec Ideal S4000x1 .f32) (v9 : Vec Ideal S1x128 .f32)
    (v13 : Vec Ideal S128 .f32) (v19 v22 : Vec Ideal S128x128 .bf16) (v26 : Vec Ideal S128 .f32) :
    k0_pay1 (F := Ideal) v6 v7 v9 v13 v19 v22 v26
      = addf (mulf (logistic (logitBlk v6 v7 v9 v13 v19 v22 v26)) (llrBlk v7 v9 v13))
          (mulf (subf (broadcast S4000x128 (Scalar.ofBits (F := Ideal) .f32 0x3F800000#32)) (logistic (logitBlk v6 v7 v9 v13 v19 v22 v26))) v6) := rfl

/-- The stored block at `(p, q)` is the specification's fused row `p` of the blocks, at lane `q`. -/
theorem pay_apply (v6 : Vec Ideal S4000x128 .f32) (v7 : Vec Ideal S4000x1 .f32) (v9 : Vec Ideal S1x128 .f32)
    (v13 : Vec Ideal S128 .f32) (v19 v22 : Vec Ideal S128x128 .bf16) (v26 : Vec Ideal S128 .f32) (p : Fin 4000) (q : Fin 128) :
    k0_pay1 (F := Ideal) v6 v7 v9 v13 v19 v22 v26 (ix2 p q)
      = fusedAt (fun k => v6 (ix2 p k)) (v7 (ix2 p (0 : Fin 1))) (fun k => v9 (ix2 (0 : Fin 1) k)) (fun k => v13 (ix1 k))
          (fun k q => v19 (ix2 k q)) (fun k q => v22 (ix2 k q)) (fun k => v26 (ix1 k)) q := by
  rw [pay_eq]
  unfold fusedAt
  rw [addf_apply, mulf_apply, mulf_apply, subf_apply, llrBlk_apply]
  show Ideal.logistic (logitBlk v6 v7 v9 v13 v19 v22 v26 (ix2 p q)) * _
      + (one - Ideal.logistic (logitBlk v6 v7 v9 v13 v19 v22 v26 (ix2 p q))) * _ = _
  rw [logitBlk_apply]

end Cert.KernelIdeal.Payload

end
-- ==== Proof.Final.lean ====
/-
  From the blocks to the array: the idealized kernel's result array is the specification's function of the arguments.

  Grid point `t` works on rows `4000·t … 4000·t + 3999`: it reads that block of the features, the LLR column block
  `min t 149` (which is block `t` on the variable tiles), the whole projection row and bias, the two halves of the gate's
  matrix (the host's slices of it, format changes being the identity here) and the gate's bias, and writes block `t` of
  the result.  On `t < 150` the block written is the fused rows; on `t ≥ 150` it is the feature block.  Every row of the
  result lies in exactly the block `row / 4000`, so the 250 blocks cover the array.
-/
import proofs.«125432_j42709154792034_1_alg».proof.Proof.Gen.KernelIdeal.Value
import proofs.«125432_j42709154792034_1_alg».proof.Proof.Pieces
import proofs.«125432_j42709154792034_1_alg».proof.Proof.Payload
import proofs.«125432_j42709154792034_1_alg».proof.Proof.Spec
import proofs.«125432_j42709154792034_1_alg».proof.Proof.LibKeepdims
import Idealize.ShloMosaic.Lib.Pipeline.Value
import Idealize.ShloMosaic.Lib.StableHlo.Run
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.GateFuse (fusedAt lo hi rowN G)

variable (m : (ℓ : Loc nD τ sig) → Buf (Elt Ideal) ℓ) (ρ : Dev nD → PrngReg)

/-! ## The arguments, and the arrays the host operations make of them -/

abbrev aX (c : Dev nD) : S1000000x128.Idx → EReal := m ((c : Thread nD τ).loc main_arg0)
abbrev aL (c : Dev nD) : S600000.Idx → EReal := m ((c : Thread nD τ).loc main_arg1)
abbrev aWl (c : Dev nD) : S1x128.Idx → EReal := m ((c : Thread nD τ).loc main_arg2)
abbrev aBl (c : Dev nD) : S128.Idx → EReal := m ((c : Thread nD τ).loc main_arg3)
abbrev aWg (c : Dev nD) : S256x128.Idx → EReal := m ((c : Thread nD τ).loc main_arg4)
abbrev aBg (c : Dev nD) : S128.Idx → EReal := m ((c : Thread nD τ).loc main_arg5)

/-- The result array, as the specification's function of the arguments. -/
abbrev result (c : Dev nD) : S1000000x128.Idx → EReal := G (aX m c) (aL m c) (aWl m c) (aBl m c) (aWg m c) (aBg m c)

/-- The LLR vector viewed as a column. -/
theorem col_eq (c : Dev nD) :
    (V m c main_v0 : S600000x1.Idx → EReal) = shapeCast S600000x1 (aL m c) shapeCasts_S600000_S600000x1 := by
  dsimp only [Gen.V, Gen.hostOps0]; after_results; rfl

/-- The first half of the gate's matrix. -/
theorem w1_eq (c : Dev nD) :
    (V m c main_v2 : S128x128.Idx → EReal)
      = truncf (F := Ideal) .bf16 (extractStridedSlice S128x128 ![0, 0] (aWg m c) slices_S256x128_S128x128_0_0) bitsLt_bf16_f32 := by
  dsimp only [Gen.V, Gen.hostOps0]; after_results

/-- The second half of the gate's matrix. -/
theorem w2_eq (c : Dev nD) :
    (V m c main_v4 : S128x128.Idx → EReal)
      = truncf (F := Ideal) .bf16 (extractStridedSlice S128x128 ![128, 0] (aWg m c) slices_S256x128_S128x128_128_0) bitsLt_bf16_f32 := by
  dsimp only [Gen.V, Gen.hostOps0]; after_results

theorem col_apply (c : Dev nD) (r : Fin 600000) (u : Fin 1) : (V m c main_v0 : S600000x1.Idx → EReal) (ix2 r u) = aL m c (ix1 r) := by
  rw [col_eq, Cert.LibKeepdims.shapeCast_a_a1_apply]

theorem w1_apply (c : Dev nD) (k q : Fin 128) : (V m c main_v2 : S128x128.Idx → EReal) (ix2 k q) = aWg m c (ix2 (lo k) q) := by
  rw [w1_eq, truncf_apply]
  exact extractStridedSlice_apply ![0, 0] (aWg m c) slices_S256x128_S128x128_0_0 (ix2 k q) (ix2 (lo k) q) (fun a => match a with
    | ⟨0, _⟩ => by show k.val = 0 + k.val; omega
    | ⟨1, _⟩ => by show q.val = 0 + q.val; omega)

theorem w2_apply (c : Dev nD) (k q : Fin 128) : (V m c main_v4 : S128x128.Idx → EReal) (ix2 k q) = aWg m c (ix2 (hi k) q) := by
  rw [w2_eq, truncf_apply]
  exact extractStridedSlice_apply ![128, 0] (aWg m c) slices_S256x128_S128x128_128_0 (ix2 k q) (ix2 (hi k) q) (fun a => match a with
    | ⟨0, _⟩ => by show 128 + k.val = 128 + k.val; rfl
    | ⟨1, _⟩ => by show q.val = 0 + q.val; omega)

/-! ## The windows' blocks -/

/-- The printed index maps, decided over the 250 grid points. -/
theorem idx_facts : ∀ t : Fin cfg0.N, win0_0.index t (0 : Fin 2) = t.val ∧ win0_0.index t (1 : Fin 2) = 0
    ∧ win0_1.index t (0 : Fin 2) = min t.val 149 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem t_lt (t : Fin cfg0.N) : t.val < 250 := lt_of_lt_of_eq t.isLt (show cfg0.N = 250 from N_0)

/-- Row `p` of tile `t`, as a row of the whole array. -/
abbrev rowOf (t : Fin cfg0.N) (p : Fin 4000) : Fin 1000000 := ⟨4000 * t.val + p.val, by have := t_lt t; have := p.isLt; omega⟩

/-- The seven input blocks at a point, each at its literal type. -/
abbrev b0 (c : Dev nD) (t : Fin cfg0.N) : Vec Ideal S4000x128 .f32 := iblk m c 0 t
abbrev b1 (c : Dev nD) (t : Fin cfg0.N) : Vec Ideal S4000x1 .f32 := iblk m c 1 t
abbrev b2 (c : Dev nD) (t : Fin cfg0.N) : Vec Ideal S1x128 .f32 := iblk m c 2 t
abbrev b3 (c : Dev nD) (t : Fin cfg0.N) : Vec Ideal S128 .f32 := iblk m c 3 t
abbrev b4 (c : Dev nD) (t : Fin cfg0.N) : Vec Ideal S128x128 .bf16 := iblk m c 4 t
abbrev b5 (c : Dev nD) (t : Fin cfg0.N) : Vec Ideal S128x128 .bf16 := iblk m c 5 t
abbrev b6 (c : Dev nD) (t : Fin cfg0.N) : Vec Ideal S128 .f32 := iblk m c 6 t

/-- The feature block of tile `t` reads rows `4000·t + p` of the features. -/
theorem b0_apply (c : Dev nD) (t : Fin cfg0.N) (p : Fin 4000) (k : Fin 128) :
    b0 m c t (ix2 p k) = aX m c (ix2 (rowOf t p) k) := by
  obtain ⟨e0, e1, -⟩ := idx_facts t
  show V m c main_arg0 (((cfg0.win 0).blk t).view.emb (ix2 p k)) = _
  rw [V_main_arg0]
  refine congrArg (aX m c) (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * k.val = k.val; omega

/-- On a tile of variable nodes the LLR column block reads the LLRs of the tile's rows. -/
theorem b1_apply (c : Dev nD) (t : Fin cfg0.N) (ht : t.val < 150) (p : Fin 4000) (u : Fin 1) :
    b1 m c t (ix2 p u) = aL m c (ix1 (⟨4000 * t.val + p.val, by have := p.isLt; omega⟩ : Fin 600000)) := by
  obtain ⟨-, -, e0, e1, -⟩ := idx_facts t
  show V m c main_v0 (((cfg0.win 1).blk t).view.emb (ix2 p u)) = _
  have hu : u.val = 0 := by omega
  rw [← col_apply m c _ u]
  refine congrArg (V m c main_v0 : S600000x1.Idx → EReal) (funext fun a => Fin.ext ?_)
  match a with
  | ⟨0, _⟩ => show win0_1.index t (0 : Fin 2) * 4000 + 1 * p.val = 4000 * t.val + p.val; omega
  | ⟨1, _⟩ => show win0_1.index t (1 : Fin 2) * 1 + 1 * u.val = u.val; omega

theorem b2_apply (c : Dev nD) (t : Fin cfg0.N) (u : Fin 1) (k : Fin 128) : b2 m c t (ix2 u k) = aWl m c (ix2 u k) := by
  obtain ⟨-, -, -, -, e0, e1, -⟩ := idx_facts t
  show V m c main_arg2 (((cfg0.win 2).blk t).view.emb (ix2 u k)) = _
  rw [V_main_arg2]
  refine congrArg (aWl m c) (funext fun a => Fin.ext ?_)
  match a with
  | ⟨0, _⟩ => show win0_2.index t (0 : Fin 2) * 1 + 1 * u.val = u.val; omega
  | ⟨1, _⟩ => show win0_2.index t (1 : Fin 2) * 128 + 1 * k.val = k.val; omega

theorem b3_apply (c : Dev nD) (t : Fin cfg0.N) (k : Fin 128) : b3 m c t (ix1 k) = aBl m c (ix1 k) := by
  obtain ⟨-, -, -, -, -, -, e0, -⟩ := idx_facts t
  show V m c main_arg3 (((cfg0.win 3).blk t).view.emb (ix1 k)) = _
  rw [V_main_arg3]
  refine congrArg (aBl m c) (funext fun a => Fin.ext ?_)
  match a with
  | ⟨0, _⟩ => show win0_3.index t (0 : Fin 1) * 128 + 1 * k.val = k.val; omega

theorem b4_apply (c : Dev nD) (t : Fin cfg0.N) (k q : Fin 128) : b4 m c t (ix2 k q) = aWg m c (ix2 (lo k) q) := by
  obtain ⟨-, -, -, -, -, -, -, e0, e1, -⟩ := idx_facts t
  show V m c main_v2 (((cfg0.win 4).blk t).view.emb (ix2 k q)) = _
  rw [← w1_apply m c k q]
  refine congrArg (V m c main_v2 : S128x128.Idx → EReal) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem b5_apply (c : Dev nD) (t : Fin cfg0.N) (k q : Fin 128) : b5 m c t (ix2 k q) = aWg m c (ix2 (hi k) q) := by
  obtain ⟨-, -, -, -, -, -, -, -, -, e0, e1, -⟩ := idx_facts t
  show V m c main_v4 (((cfg0.win 5).blk t).view.emb (ix2 k q)) = _
  rw [← w2_apply m c k q]
  refine congrArg (V m c main_v4 : S128x128.Idx → EReal) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem b6_apply (c : Dev nD) (t : Fin cfg0.N) (k : Fin 128) : b6 m c t (ix1 k) = aBg m c (ix1 k) := by
  obtain ⟨-, -, -, -, -, -, -, -, -, -, -, e0, -⟩ := idx_facts t
  show V m c main_arg5 (((cfg0.win 6).blk t).view.emb (ix1 k)) = _
  rw [V_main_arg5]
  refine congrArg (aBg m c) (funext fun a => Fin.ext ?_)
  match a with
  | ⟨0, _⟩ => show win0_6.index t (0 : Fin 1) * 128 + 1 * k.val = k.val; omega

/-- Entry `(p, q)` of the output's block `t` is entry `(4000·t + p, q)` of the result array. -/
theorem out_emb (t : Fin cfg0.N) (p : Fin 4000) (q : Fin 128) :
    ((cfg0.win 7).blk t).view.emb (ix2 p q) = ix2 (rowOf t p) q := by
  obtain ⟨-, -, -, -, -, -, -, -, -, -, -, -, e0, e1⟩ := idx_facts t
  refine funext fun a => Fin.ext ?_
  match a with
  | ⟨0, _⟩ => show win0_7.index t (0 : Fin 2) * 4000 + 1 * p.val = 4000 * t.val + p.val; omega
  | ⟨1, _⟩ => show win0_7.index t (1 : Fin 2) * 128 + 1 * q.val = q.val; omega

/-! ## What a point writes back -/

/-- A tile of variable nodes: the fused rows are the specification's rows `4000·t + p`. -/
theorem tile_var (c : Dev nD) (t : Fin cfg0.N) (ht : t.val < 150) (p : Fin 4000) (q : Fin 128) :
    k0_pay1 (F := Ideal) (b0 m c t) (b1 m c t) (b2 m c t) (b3 m c t) (b4 m c t) (b5 m c t) (b6 m c t) (ix2 p q)
      = result m c (ix2 (rowOf t p) q) := by
  rw [Cert.KernelIdeal.Payload.pay_apply]
  refine Eq.trans ?_ (Cert.GateFuse.G_var (aX m c) (aL m c) (aWl m c) (aBl m c) (aWg m c) (aBg m c)
    (⟨4000 * t.val + p.val, by have := p.isLt; omega⟩ : Fin 600000) q).symm
  simp only [b0_apply, b1_apply m c t ht, b2_apply, b3_apply, b4_apply, b5_apply, b6_apply]

/-- What point `t` writes back is block `t` of the specification's result. -/
theorem flushed_eq (c : Dev nD) (t : Fin cfg0.N) :
    (dats m 0 c).flushed 7 t = ((cfg0.win 7).blk t).view.read (Elt Ideal) (result m c) := by
  by_cases ht : t.val < 150
  · rw [Cert.KernelIdeal.Value.flushed7_A m c t ht (by omega), Cert.KernelIdeal.Pieces.out_A]
    funext j
    show k0_pay1 (F := Ideal) (b0 m c t) (b1 m c t) (b2 m c t) (b3 m c t) (b4 m c t) (b5 m c t) (b6 m c t) j
      = result m c (((cfg0.win 7).blk t).view.emb j)
    obtain ⟨p, q, rfl⟩ : ∃ (p : Fin 4000) (q : Fin 128), j = ix2 p q := ⟨j 0, j 1, eq_ix2 j⟩
    rw [out_emb, tile_var m c t ht]
  · rw [Cert.KernelIdeal.Value.flushed7_B m c t ht (by omega), Cert.KernelIdeal.Pieces.out_B]
    funext j
    show b0 m c t j = result m c (((cfg0.win 7).blk t).view.emb j)
    obtain ⟨p, q, rfl⟩ : ∃ (p : Fin 4000) (q : Fin 128), j = ix2 p q := ⟨j 0, j 1, eq_ix2 j⟩
    rw [out_emb, b0_apply]
    exact (Cert.GateFuse.G_keep _ _ _ _ _ _ _ (by show ¬ (4000 * t.val + p.val < 600000); omega)).symm

/-! ## The blocks cover the array -/

theorem mem_blk (t : Fin cfg0.N) (i : S1000000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v5).slice (win0_7.rect t)).set ↔ _
  rw [View.set_slice_whole, Rect.mem_set_unit]
  exact Iff.rfl

theorem cover (i : S1000000x128.Idx) : ∃ t : Fin cfg0.N, (cfg0.win 7).flush t = true ∧ i ∈ ((cfg0.win 7).blk t).view.set := by
  have hi0 : (i 0).val < 1000000 := (i 0).isLt
  have hi1 : (i 1).val < 128 := (i 1).isLt
  let t : Fin cfg0.N := ⟨(i 0).val / 4000, by rw [show cfg0.N = 250 from N_0]; omega⟩
  obtain ⟨-, -, -, -, -, -, -, -, -, -, -, -, e0, e1⟩ := idx_facts t
  have et : t.val = (i 0).val / 4000 := rfl
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- The result array after the run is the specification's function of the arguments. -/
theorem final (c : Dev nD) : (dats m 0 c).arrAt 7 cfg0.N = result m c :=
  (dats m 0 c).arrAt_eq_of_cover 7 (result m c) (fun t _ => flushed_eq m c t) cover

/-- The idealized kernel's run: the result array at the specification, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Final

end
-- ==== Proof.LibScatterSet.lean ====
/-
  A set-scatter read at one index.

  `Host.scatter d (fun _ b => b) x idx upd` walks the update indices in row-major order, and each
  update that lands inside the operand overwrites the element it lands on.  Read at a fixed operand
  index `i` the walk is easy to describe when at most one update lands on `i`:
  if exactly the update `j₀` lands on `i`, the result there is `upd j₀`; if none does, it is `x i`.
  Both are proved by induction along the walk, over any list of update positions without repetition.
-/
import Idealize.ShloMosaic.PureOps.ShapeOps

namespace Idealize.ShloMosaic

namespace SetScatter

variable {s u : Shape} {α : Type}

/-- One step of the walk: the update `j` overwrites the element it lands on (`g j`), if any. -/
def step (g : u.Idx → Option s.Idx) (upd : u.Idx → α) (r : s.Idx → α) (j : u.Idx) : s.Idx → α :=
  match g j with
  | some i => fun i' => if i' = i then upd j else r i'
  | none => r

theorem step_of_ne (g : u.Idx → Option s.Idx) (upd : u.Idx → α) (r : s.Idx → α) (j : u.Idx) (i : s.Idx)
    (h : g j ≠ some i) : step g upd r j i = r i := by
  unfold step
  cases hg : g j with
  | none => rfl
  | some i0 =>
    have hne : i ≠ i0 := fun e => h (by rw [hg, e])
    simp only [if_neg hne]

theorem step_of_eq (g : u.Idx → Option s.Idx) (upd : u.Idx → α) (r : s.Idx → α) (j : u.Idx) (i : s.Idx)
    (h : g j = some i) : step g upd r j i = upd j := by
  unfold step
  rw [h]
  exact if_pos rfl

/-- The walk over positions none of which lands on `i` leaves `i` as it was. -/
theorem foldl_of_miss {ι : Type} (g : u.Idx → Option s.Idx) (upd : u.Idx → α) (e : ι → u.Idx) (i : s.Idx) :
    ∀ (l : List ι) (r : s.Idx → α), (∀ n ∈ l, g (e n) ≠ some i) →
      (l.foldl (fun r n => step g upd r (e n)) r) i = r i := by
  intro l
  induction l with
  | nil => intro r _; rfl
  | cons a t ih =>
    intro r h
    rw [List.foldl_cons, ih _ (fun n hn => h n (List.mem_cons_of_mem _ hn))]
    exact step_of_ne g upd r (e a) i (h a (List.mem_cons_self ..))

/-- The walk over positions without repetition, exactly one of which (`n₀`) lands on `i`, leaves that
    position's update at `i`. -/
theorem foldl_of_hit {ι : Type} (g : u.Idx → Option s.Idx) (upd : u.Idx → α) (e : ι → u.Idx) (i : s.Idx) (n₀ : ι)
    (h₀ : g (e n₀) = some i) :
    ∀ (l : List ι) (r : s.Idx → α), l.Nodup → n₀ ∈ l → (∀ n ∈ l, g (e n) = some i → n = n₀) →
      (l.foldl (fun r n => step g upd r (e n)) r) i = upd (e n₀) := by
  intro l
  induction l with
  | nil => intro r _ hm _; exact absurd hm (List.not_mem_nil)
  | cons a t ih =>
    intro r hnd hm huniq
    rw [List.foldl_cons]
    have hnd' := List.nodup_cons.1 hnd
    by_cases ha : a = n₀
    · subst ha
      rw [foldl_of_miss g upd e i t _ (fun n hn hgn => by
        have := huniq n (List.mem_cons_of_mem _ hn) hgn
        exact hnd'.1 (this ▸ hn))]
      exact step_of_eq g upd r (e a) i h₀
    · have hm' : n₀ ∈ t := by
        rcases List.mem_cons.1 hm with h | h
        · exact absurd h.symm ha
        · exact h
      exact ih _ hnd'.2 hm' (fun n hn => huniq n (List.mem_cons_of_mem _ hn))

end SetScatter

variable {s si u : Shape} {α : Type} {w : Nat}

/-- A set-scatter is the walk of `SetScatter.step` over the update positions in row-major order. -/
theorem Host.scatter_set_eq_foldl (d : ScatterDims s si u) (x : s.Idx → α) (idx : IVec si w) (upd : u.Idx → α) :
    Host.scatter d (fun _ b => b) x idx upd
      = (List.finRange u.numel).foldl
          (fun r n => SetScatter.step (fun j => d.resultIdx? j idx) upd r (u.rowMajor.symm n)) x := by
  unfold Host.scatter SetScatter.step
  rfl

/-- A set-scatter at an operand index on which exactly one update lands holds that update. -/
theorem Host.scatter_set_apply_of_hit (d : ScatterDims s si u) (x : s.Idx → α) (idx : IVec si w) (upd : u.Idx → α)
    (i : s.Idx) (j₀ : u.Idx) (h₀ : d.resultIdx? j₀ idx = some i)
    (huniq : ∀ j, d.resultIdx? j idx = some i → j = j₀) :
    Host.scatter d (fun _ b => b) x idx upd i = upd j₀ := by
  rw [Host.scatter_set_eq_foldl]
  have h := SetScatter.foldl_of_hit (fun j => d.resultIdx? j idx) upd (fun n => u.rowMajor.symm n) i (u.rowMajor j₀)
    (by simpa using h₀) (List.finRange u.numel) x (List.nodup_finRange _) (List.mem_finRange _)
    (fun n _ hn => by
      have := huniq _ hn
      rw [← this]; simp)
  simpa using h

/-- A set-scatter at an operand index on which no update lands keeps the operand's element. -/
theorem Host.scatter_set_apply_of_miss (d : ScatterDims s si u) (x : s.Idx → α) (idx : IVec si w) (upd : u.Idx → α)
    (i : s.Idx) (hmiss : ∀ j, d.resultIdx? j idx ≠ some i) :
    Host.scatter d (fun _ b => b) x idx upd i = x i := by
  rw [Host.scatter_set_eq_foldl]
  exact SetScatter.foldl_of_miss (fun j => d.resultIdx? j idx) upd (fun n => u.rowMajor.symm n) i
    (List.finRange u.numel) x (fun n _ => hmiss _)

end Idealize.ShloMosaic
-- ==== Proof.RefValue.lean ====
/-
  The reference's stages read at an index, on the extended reals, up to the specification.

  For a variable row `r`: the slice of the features reads row `r`; the projected LLR at `(r, k)` is
  `llr r · wl k + bl k`; the concatenation holds the features in its first 128 columns and the projection in its last
  128, so the 256-deep product splits into the two 128-deep sums; the gate is spelt with negate, exponential, add and
  divide, which is the logistic; and the convex combination follows.  The final scatter writes that [600000,128]
  block at row offset 0 of the features: each update lands on its own entry, so an entry of a variable row holds its
  update and every other entry is kept.
-/
import proofs.«125432_j42709154792034_1_alg».proof.Proof.Gen.ReferenceIdeal.Read
import proofs.«125432_j42709154792034_1_alg».proof.Proof.Spec
import proofs.«125432_j42709154792034_1_alg».proof.Proof.LibScatterSet
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.GateFuse (fusedAt one lo hi rowN G)

/-! ## The features' slice and the projected LLR -/

theorem feat_apply (x0 : (⟨S1000000x128, .f32⟩ : BufTy).Contents (Elt Ideal)) (r : Fin 600000) (k : Fin 128) :
    val_main_v0 (F := Ideal) x0 (ix2 r k) = x0 (ix2 (rowN r) k) := by
  rw [val_main_v0_apply]
  exact congrArg x0 (funext fun a => Fin.ext (by match a with | ⟨0, _⟩ => rfl | ⟨1, _⟩ => rfl))

theorem llr_apply (x1 : (⟨S600000, .f32⟩ : BufTy).Contents (Elt Ideal)) (x2 : (⟨S1x128, .f32⟩ : BufTy).Contents (Elt Ideal))
    (x3 : (⟨S128, .f32⟩ : BufTy).Contents (Elt Ideal)) (r : Fin 600000) (k : Fin 128) :
    val_main_v9 (F := Ideal) x1 x2 x3 (ix2 r k) = x1 (ix1 r) * x2 (ix2 (0 : Fin 1) k) + x3 (ix1 k) := by
  have e1 : idx_main_v1 (idx_main_v4 (ix2 r k)) = ix1 r :=
    funext fun a => Fin.ext (by match a with | ⟨0, _⟩ => rfl)
  have e2 : idx_main_v2 (idx_main_v3 (idx_main_v5 (ix2 r k))) = ix2 (0 : Fin 1) k :=
    funext fun a => Fin.ext (by
      match a with
      | ⟨0, _⟩ => rfl
      | ⟨1, _⟩ => show k.val % 128 = k.val; have := k.isLt; omega)
  have e3 : idx_main_v7 (idx_main_v8 (ix2 r k)) = ix1 k :=
    funext fun a => Fin.ext (by match a with | ⟨0, _⟩ => rfl)
  rw [val_main_v9_apply, val_main_v6_apply, val_main_v4_apply, val_main_v1_apply, val_main_v5_apply, val_main_v3_apply,
    val_main_v2_apply, val_main_v8_apply, val_main_v7_apply, e1, e2, e3]
  rfl

/-! ## The concatenation, and the 256-deep product split in two -/

theorem cat_lo (x0 : (⟨S1000000x128, .f32⟩ : BufTy).Contents (Elt Ideal)) (x1 : (⟨S600000, .f32⟩ : BufTy).Contents (Elt Ideal)) (x2 : (⟨S1x128, .f32⟩ : BufTy).Contents (Elt Ideal)) (x3 : (⟨S128, .f32⟩ : BufTy).Contents (Elt Ideal)) (r : Fin 600000) (k : Fin 128) :
    val_main_v10 (F := Ideal) x0 x1 x2 x3 (ix2 r (lo k)) = val_main_v0 (F := Ideal) x0 (ix2 r k) := by
  unfold val_main_v10
  refine concatenate_pair_apply_left (s₁ := S600000x128) (s₂ := S600000x128) (1 : Fin S600000x256.rank) _ _ _ (ix2 r (lo k)) rfl
    (ix2 r k : S600000x128.Idx) fun b => ?_
  match b with
  | ⟨0, _⟩ => rfl
  | ⟨1, _⟩ => rfl

theorem cat_hi (x0 : (⟨S1000000x128, .f32⟩ : BufTy).Contents (Elt Ideal)) (x1 : (⟨S600000, .f32⟩ : BufTy).Contents (Elt Ideal)) (x2 : (⟨S1x128, .f32⟩ : BufTy).Contents (Elt Ideal)) (x3 : (⟨S128, .f32⟩ : BufTy).Contents (Elt Ideal)) (r : Fin 600000) (k : Fin 128) :
    val_main_v10 (F := Ideal) x0 x1 x2 x3 (ix2 r (hi k)) = val_main_v9 (F := Ideal) x1 x2 x3 (ix2 r k) := by
  unfold val_main_v10
  refine concatenate_pair_apply_right (s₁ := S600000x128) (s₂ := S600000x128) (1 : Fin S600000x256.rank) _ _ _ (ix2 r (hi k)) rfl rfl
    (ix2 r k : S600000x128.Idx) (fun b hb => ?_) ?_
  · match b with
    | ⟨0, _⟩ => rfl
    | ⟨1, _⟩ => exact absurd rfl hb
  · show k.val + 128 = 128 + k.val
    omega

theorem dot_apply (x0 : (⟨S1000000x128, .f32⟩ : BufTy).Contents (Elt Ideal)) (x1 : (⟨S600000, .f32⟩ : BufTy).Contents (Elt Ideal)) (x2 : (⟨S1x128, .f32⟩ : BufTy).Contents (Elt Ideal)) (x3 : (⟨S128, .f32⟩ : BufTy).Contents (Elt Ideal)) (x4 : (⟨S256x128, .f32⟩ : BufTy).Contents (Elt Ideal)) (r : Fin 600000) (q : Fin 128) :
    val_main_v11 (F := Ideal) x0 x1 x2 x3 x4 (ix2 r q)
      = (∑ k : Fin 128, x0 (ix2 (rowN r) k) * x4 (ix2 (lo k) q))
        + (∑ k : Fin 128, (x1 (ix1 r) * x2 (ix2 (0 : Fin 1) k) + x3 (ix1 k)) * x4 (ix2 (hi k) q)) := by
  rw [val_main_v11_apply, Cert.GateFuse.sum_halves]
  have el : ∀ k : Fin 256, lidx_main_v11 (ix2 r q) k = ix2 r k := fun k =>
    funext fun a => Fin.ext (by match a with | ⟨0, _⟩ => rfl | ⟨1, _⟩ => rfl)
  have er : ∀ k : Fin 256, ridx_main_v11 (ix2 r q) k = ix2 k q := fun k =>
    funext fun a => Fin.ext (by match a with | ⟨0, _⟩ => rfl | ⟨1, _⟩ => rfl)
  simp only [el, er, cat_lo, cat_hi, feat_apply, llr_apply]

theorem gbias_apply (x5 : (⟨S128, .f32⟩ : BufTy).Contents (Elt Ideal)) (r : Fin 600000) (q : Fin 128) :
    val_main_v13 (F := Ideal) x5 (ix2 r q) = x5 (ix1 q) := by
  rw [val_main_v13_apply, val_main_v12_apply]
  exact congrArg x5 (funext fun a => Fin.ext (by match a with | ⟨0, _⟩ => rfl))

theorem ones_apply (i : S600000x128.Idx) :
    val_main_v17 (F := Ideal) i = one ∧ val_main_v19 (F := Ideal) i = one ∧ val_main_v22 (F := Ideal) i = one :=
  ⟨by rw [val_main_v17_apply, val_main_cst_apply]; rfl, by rw [val_main_v19_apply, val_main_cst_0_apply]; rfl,
    by rw [val_main_v22_apply, val_main_cst_1_apply]; rfl⟩

/-! ## The fused block -/

theorem fused_apply (x0 : (⟨S1000000x128, .f32⟩ : BufTy).Contents (Elt Ideal)) (x1 : (⟨S600000, .f32⟩ : BufTy).Contents (Elt Ideal)) (x2 : (⟨S1x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (r : Fin 600000) (q : Fin 128) :
    val_main_v25 (F := Ideal) x0 x1 x2 x3 x4 x5 (ix2 r q)
      = fusedAt (fun k => x0 (ix2 (rowN r) k)) (x1 (ix1 r)) (fun k => x2 (ix2 (0 : Fin 1) k)) (fun k => x3 (ix1 k))
          (fun k q => x4 (ix2 (lo k) q)) (fun k q => x4 (ix2 (hi k) q)) (fun k => x5 (ix1 k)) q := by
  have hg : val_main_v20 (F := Ideal) x0 x1 x2 x3 x4 x5 (ix2 r q)
      = Ideal.logistic (((∑ k : Fin 128, x0 (ix2 (rowN r) k) * x4 (ix2 (lo k) q))
          + (∑ k : Fin 128, (x1 (ix1 r) * x2 (ix2 (0 : Fin 1) k) + x3 (ix1 k)) * x4 (ix2 (hi k) q))) + x5 (ix1 q)) := by
    rw [val_main_v20_apply, val_main_v18_apply, val_main_v16_apply, val_main_v15_apply, val_main_v14_apply,
      (ones_apply _).1, (ones_apply _).2.1, dot_apply, gbias_apply]
    exact Cert.GateFuse.logistic_spelt _
  rw [val_main_v25_apply, val_main_v21_apply, val_main_v24_apply, val_main_v23_apply, (ones_apply _).2.2, hg, llr_apply,
    feat_apply]
  rfl

/-! ## The scatter -/

/-- An update index as the entry of the features it lands on: the same row and lane. -/
abbrev land (j : S600000x128.Idx) : S1000000x128.Idx := ix2 (rowN (j 0)) (j 1)

theorem start_eq (j : S600000x128.Idx) (a : Fin 2) :
    scatter_S1000000x128_S1_S600000x128_01_n_0_0.start j (val_main_v26 (F := Ideal)) a = 0 := by
  unfold ScatterDims.start
  match a with
  | ⟨0, _⟩ =>
    rw [dif_pos (show (⟨0, by decide⟩ : Fin S1000000x128.rank) ∈ scatter_S1000000x128_S1_S600000x128_01_n_0_0.scatterDimsToOperandDims by decide),
      val_main_v26_apply, val_main_c_apply]
    rfl
  | ⟨1, _⟩ =>
    rw [dif_neg (show ¬(⟨1, by decide⟩ : Fin S1000000x128.rank) ∈ scatter_S1000000x128_S1_S600000x128_01_n_0_0.scatterDimsToOperandDims by decide)]

theorem window_eq (j : S600000x128.Idx) (a : Fin 2) :
    scatter_S1000000x128_S1_S600000x128_01_n_0_0.window j a = (j a).val := by
  unfold ScatterDims.window
  match a with
  | ⟨0, _⟩ =>
    rw [dif_pos (show (⟨0, by decide⟩ : Fin S1000000x128.rank) ∈ scatter_S1000000x128_S1_S600000x128_01_n_0_0.sKept by decide)]
    rfl
  | ⟨1, _⟩ =>
    rw [dif_pos (show (⟨1, by decide⟩ : Fin S1000000x128.rank) ∈ scatter_S1000000x128_S1_S600000x128_01_n_0_0.sKept by decide)]
    rfl

/-- Every update lands inside the features, on the entry with its own row and lane. -/
theorem lands (j : S600000x128.Idx) :
    scatter_S1000000x128_S1_S600000x128_01_n_0_0.resultIdx? j (val_main_v26 (F := Ideal)) = some (land j) := by
  unfold ScatterDims.resultIdx?
  have h : ∀ a, 0 ≤ scatter_S1000000x128_S1_S600000x128_01_n_0_0.start j (val_main_v26 (F := Ideal)) a + scatter_S1000000x128_S1_S600000x128_01_n_0_0.window j a
      ∧ scatter_S1000000x128_S1_S600000x128_01_n_0_0.start j (val_main_v26 (F := Ideal)) a + scatter_S1000000x128_S1_S600000x128_01_n_0_0.window j a < S1000000x128.size a := fun a => by
    rw [start_eq, window_eq]
    match a with
    | ⟨0, _⟩ => have h0 : (j 0).val < 600000 := (j 0).isLt; show (0 : Int) ≤ 0 + ((j 0).val : Int) ∧ 0 + ((j 0).val : Int) < (1000000 : Nat); omega
    | ⟨1, _⟩ => have h1 : (j 1).val < 128 := (j 1).isLt; show (0 : Int) ≤ 0 + ((j 1).val : Int) ∧ 0 + ((j 1).val : Int) < (128 : Nat); omega
  rw [dif_pos h]
  refine congrArg some (funext fun a => Fin.ext ?_)
  show (scatter_S1000000x128_S1_S600000x128_01_n_0_0.start j (val_main_v26 (F := Ideal)) a + scatter_S1000000x128_S1_S600000x128_01_n_0_0.window j a).toNat = (land j a).val
  rw [start_eq, window_eq]
  match a with
  | ⟨0, _⟩ => show (0 + ((j 0).val : Int)).toNat = (j 0).val; omega
  | ⟨1, _⟩ => show (0 + ((j 1).val : Int)).toNat = (j 1).val; omega

theorem land_inj (j j' : S600000x128.Idx) (h : land j = land j') : j = j' := by
  funext a
  apply Fin.ext
  match a with
  | ⟨0, _⟩ => exact congrArg (fun i : S1000000x128.Idx => (i 0).val) h
  | ⟨1, _⟩ => exact congrArg (fun i : S1000000x128.Idx => (i 1).val) h

/-! ## The result -/

/-- The reference's result array is the specification's function of the arguments. -/
theorem result_eq (x0 : (⟨S1000000x128, .f32⟩ : BufTy).Contents (Elt Ideal)) (x1 : (⟨S600000, .f32⟩ : BufTy).Contents (Elt Ideal)) (x2 : (⟨S1x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) :
    val_main_v27 (F := Ideal) x0 x1 x2 x3 x4 x5 = G x0 x1 x2 x3 x4 x5 := by
  funext i
  obtain ⟨r, q, rfl⟩ : ∃ (r : Fin 1000000) (q : Fin 128), i = ix2 r q := ⟨i 0, i 1, eq_ix2 i⟩
  unfold val_main_v27
  by_cases h : r.val < 600000
  · have hi : land (ix2 (⟨r.val, h⟩ : Fin 600000) q) = ix2 r q := rfl
    refine (Host.scatter_set_apply_of_hit scatter_S1000000x128_S1_S600000x128_01_n_0_0 x0 (val_main_v26 (F := Ideal)) (val_main_v25 (F := Ideal) x0 x1 x2 x3 x4 x5)
      (ix2 r q) (ix2 (⟨r.val, h⟩ : Fin 600000) q) ((lands _).trans (congrArg some hi))
      (fun j hj => land_inj _ _ (Option.some.inj ((lands j).symm.trans (hj.trans (congrArg some hi.symm)))))).trans ?_
    rw [fused_apply]
    exact (Cert.GateFuse.G_var x0 x1 x2 x3 x4 x5 ⟨r.val, h⟩ q).symm
  · refine (Host.scatter_set_apply_of_miss scatter_S1000000x128_S1_S600000x128_01_n_0_0 x0 (val_main_v26 (F := Ideal)) (val_main_v25 (F := Ideal) x0 x1 x2 x3 x4 x5)
      (ix2 r q) (fun j hj => h (by
        have e : (j 0).val = r.val := congrArg (fun i : S1000000x128.Idx => (i 0).val) (Option.some.inj ((lands j).symm.trans hj))
        have hlt : (j 0).val < 600000 := (j 0).isLt
        omega))).trans ?_
    exact (Cert.GateFuse.G_keep x0 x1 x2 x3 x4 x5 (ix2 r q) h).symm

end Cert.ReferenceIdeal.RefValue

end
-- ==== Proof.lean ====
/-
  The certificate's five claims.

  The kernel streams the node features in 250 row tiles of 4000 rows.  On the first 150 tiles (the 600000 variable
  nodes) it projects each row's scalar LLR to 128 lanes, forms the gate as the logistic of the 256-deep linear form of
  the row's features followed by that projection (computed as two 128-deep products), and mixes projection and features
  by the gate; the remaining tiles are copied.  The reference does the same on the slice of the first 600000 rows, with
  one 256-deep product over the concatenation and the logistic spelt with negate, exponential, add and divide, and
  scatters the block back at row 0.  On the extended reals both are ONE function of the arguments (`GateFuse.G`):
  a sum over 256 positions is the sum over its halves, and the spelt gate is the logistic.

  The three frames: the kernel's two are the generated frame runs; the reference's is its generated run with the result
  dropped.  The idealization rewrote nothing.  The algebraic claim sets the idealized kernel's run, read to the
  specification block by block, beside the reference's run, read to the specification stage by stage.
-/
import proofs.«125432_j42709154792034_1_alg».proof.Defs
import proofs.«125432_j42709154792034_1_alg».proof.Proof.Gen.Kernel
import proofs.«125432_j42709154792034_1_alg».proof.Proof.Gen.Kernel.Skeleton
import proofs.«125432_j42709154792034_1_alg».proof.Proof.Gen.Kernel.Launch
import proofs.«125432_j42709154792034_1_alg».proof.Proof.Gen.Kernel.Points
import proofs.«125432_j42709154792034_1_alg».proof.Proof.Gen.Kernel.Frame
import proofs.«125432_j42709154792034_1_alg».proof.Proof.Gen.KernelIdeal
import proofs.«125432_j42709154792034_1_alg».proof.Proof.Gen.KernelIdeal.Skeleton
import proofs.«125432_j42709154792034_1_alg».proof.Proof.Gen.KernelIdeal.Launch
import proofs.«125432_j42709154792034_1_alg».proof.Proof.Gen.KernelIdeal.Points
import proofs.«125432_j42709154792034_1_alg».proof.Proof.Gen.KernelIdeal.Frame
import proofs.«125432_j42709154792034_1_alg».proof.Proof.Gen.ReferenceIdeal
import proofs.«125432_j42709154792034_1_alg».proof.Proof.Gen.Pre_finite_inputs
import proofs.«125432_j42709154792034_1_alg».proof.Proof.Gen.KernelIdeal.Value
import proofs.«125432_j42709154792034_1_alg».proof.Proof.Gen.ReferenceIdeal.Run
import proofs.«125432_j42709154792034_1_alg».proof.Proof.Gen.ReferenceIdeal.Read
import proofs.«125432_j42709154792034_1_alg».proof.Proof.Final
import proofs.«125432_j42709154792034_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the specification's function of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq (F := Ideal) _ _ _ _ _ _).trans ?_
  rw [Cert.ReferenceIdeal.RefValue.result_eq, (hagree c).1, (hagree c).2.1, (hagree c).2.2.1, (hagree c).2.2.2.1,
    (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
